-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x48 : Shape := ⟨4, ![16, 256, 256, 48]⟩
abbrev S91x48 : Shape := ⟨2, ![91, 48]⟩
abbrev S_ : Shape := ⟨0, ![]⟩

class Facts : Prop where
  bcast_S_S16x256x256x48 : S_.BroadcastsInDim S16x256x256x48 (![] : Fin 0 → Fin S16x256x256x48.rank)
  reducesTo_S16x256x256x48_S_d0_1_2_3 : S16x256x256x48.ReducesTo [0, 1, 2, 3] S_
  h_S_ : 0 < S_.numel
  bcast_S_S91x48 : S_.BroadcastsInDim S91x48 (![] : Fin 0 → Fin S91x48.rank)
  reducesTo_S91x48_S_d0_1 : S91x48.ReducesTo [0, 1] S_

variable [Facts]

def fn {F : FTy → Type} [FloatOps F] (main_arg0 : FVec F S16x256x256x48 .f32) (main_arg1 : FVec F S91x48 .f32) : IVec S_ 1 :=
  let main_v0 : FVec F S16x256x256x48 .f32 := Host.absf main_arg0
  let main_cst : FVec F S_ .f32 := constant S_ .f32 0x7F800000#32
  let main_v1 : FVec F S16x256x256x48 .f32 := broadcastInDim S16x256x256x48 ![] bcast_S_S16x256x256x48 main_cst
  let main_v2 : IVec S16x256x256x48 1 := cmpf .olt main_v0 main_v1
  let main_c : IVec S_ 1 := constantI S_ 1 1#1
  let main_v3 : IVec S_ 1 := (fun x v => Host.reduce IntOp.andi x v reducesTo_S16x256x256x48_S_d0_1_2_3 h_S_) main_v2 main_c
  let main_v4 : FVec F S91x48 .f32 := Host.absf main_arg1
  let main_cst_0 : FVec F S_ .f32 := constant S_ .f32 0x7F800000#32
  let main_v5 : FVec F S91x48 .f32 := broadcastInDim S91x48 ![] bcast_S_S91x48 main_cst_0
  let main_v6 : IVec S91x48 1 := cmpf .olt main_v4 main_v5
  let main_c_1 : IVec S_ 1 := constantI S_ 1 1#1
  let main_v7 : IVec S_ 1 := (fun x v => Host.reduce IntOp.andi x v reducesTo_S91x48_S_d0_1 h_S_) main_v6 main_c_1
  let main_v8 : IVec S_ 1 := andi main_v3 main_v7
  main_v8
-- ==== Kernel.lean ====
abbrev S16x256x256x48 : Shape := ⟨4, ![16, 256, 256, 48]⟩
abbrev S91x48 : Shape := ⟨2, ![91, 48]⟩
abbrev S1048576x48 : Shape := ⟨2, ![1048576, 48]⟩
abbrev S8192x48 : Shape := ⟨2, ![8192, 48]⟩
abbrev S1x48 : Shape := ⟨2, ![1, 48]⟩
abbrev S48 : Shape := ⟨1, ![48]⟩

abbrev nBuf : Space → Nat
  | .hbm => 5
  | .vmem => 5
  | .smem => 0
  | _ => 0

abbrev bufTy : (tb : Table) → Fin (tcTables nBuf tb) → BufTy
  | .hbm, ⟨0, _⟩ => ⟨S16x256x256x48, .f32⟩
  | .hbm, ⟨1, _⟩ => ⟨S91x48, .f32⟩
  | .hbm, ⟨2, _⟩ => ⟨S1048576x48, .f32⟩
  | .hbm, ⟨3, _⟩ => ⟨S1048576x48, .f32⟩
  | .hbm, ⟨4, _⟩ => ⟨S16x256x256x48, .f32⟩
  | .local _ .vmem, ⟨0, _⟩ => ⟨S8192x48, .f32⟩
  | .local _ .vmem, ⟨1, _⟩ => ⟨S8192x48, .f32⟩
  | .local _ .vmem, ⟨2, _⟩ => ⟨S91x48, .f32⟩
  | .local _ .vmem, ⟨3, _⟩ => ⟨S8192x48, .f32⟩
  | .local _ .vmem, ⟨4, _⟩ => ⟨S8192x48, .f32⟩
  | _, _ => ⟨S16x256x256x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S91x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x256x48_S1048576x48 : S16x256x256x48.ShapeCasts S1048576x48
  inb_S8192x48_S8192x48_0_0 : ∀ a, (![0, 0] : Fin 2 → Nat) a + S8192x48.size a ≤ S8192x48.size a
  h_S8192x48 : 0 < S8192x48.numel
  shapeCasts_S8192x48_S8192x48 : S8192x48.ShapeCasts S8192x48
  inb_S91x48_S91x48_0_0 : ∀ a, (![0, 0] : Fin 2 → Nat) a + S91x48.size a ≤ S91x48.size a
  h_S91x48 : 0 < S91x48.numel
  natLt_1_32 : 1 < 32
  slices_S91x48_o0_0_S1x48 : S91x48.Slices ![0, 0] S1x48
  shapeCasts_S1x48_S48 : S1x48.ShapeCasts S48
  shapeCasts_S48_S1x48 : S48.ShapeCasts S1x48
  broadcasts_S1x48_S8192x48 : S1x48.Broadcasts S8192x48
  slices_S91x48_o1_0_S1x48 : S91x48.Slices ![1, 0] S1x48
  slices_S91x48_o2_0_S1x48 : S91x48.Slices ![2, 0] S1x48
  slices_S91x48_o3_0_S1x48 : S91x48.Slices ![3, 0] S1x48
  slices_S91x48_o4_0_S1x48 : S91x48.Slices ![4, 0] S1x48
  slices_S91x48_o5_0_S1x48 : S91x48.Slices ![5, 0] S1x48
  slices_S91x48_o6_0_S1x48 : S91x48.Slices ![6, 0] S1x48
  slices_S91x48_o7_0_S1x48 : S91x48.Slices ![7, 0] S1x48
  slices_S91x48_o8_0_S1x48 : S91x48.Slices ![8, 0] S1x48
  slices_S91x48_o9_0_S1x48 : S91x48.Slices ![9, 0] S1x48
  slices_S91x48_o10_0_S1x48 : S91x48.Slices ![10, 0] S1x48
  slices_S91x48_o11_0_S1x48 : S91x48.Slices ![11, 0] S1x48
  slices_S91x48_o12_0_S1x48 : S91x48.Slices ![12, 0] S1x48
  slices_S91x48_o13_0_S1x48 : S91x48.Slices ![13, 0] S1x48
  slices_S91x48_o14_0_S1x48 : S91x48.Slices ![14, 0] S1x48
  slices_S91x48_o15_0_S1x48 : S91x48.Slices ![15, 0] S1x48
  slices_S91x48_o16_0_S1x48 : S91x48.Slices ![16, 0] S1x48
  slices_S91x48_o17_0_S1x48 : S91x48.Slices ![17, 0] S1x48
  slices_S91x48_o18_0_S1x48 : S91x48.Slices ![18, 0] S1x48
  slices_S91x48_o19_0_S1x48 : S91x48.Slices ![19, 0] S1x48
  slices_S91x48_o20_0_S1x48 : S91x48.Slices ![20, 0] S1x48
  slices_S91x48_o21_0_S1x48 : S91x48.Slices ![21, 0] S1x48
  slices_S91x48_o22_0_S1x48 : S91x48.Slices ![22, 0] S1x48
  slices_S91x48_o23_0_S1x48 : S91x48.Slices ![23, 0] S1x48
  slices_S91x48_o24_0_S1x48 : S91x48.Slices ![24, 0] S1x48
  slices_S91x48_o25_0_S1x48 : S91x48.Slices ![25, 0] S1x48
  slices_S91x48_o26_0_S1x48 : S91x48.Slices ![26, 0] S1x48
  slices_S91x48_o27_0_S1x48 : S91x48.Slices ![27, 0] S1x48
  slices_S91x48_o28_0_S1x48 : S91x48.Slices ![28, 0] S1x48
  slices_S91x48_o29_0_S1x48 : S91x48.Slices ![29, 0] S1x48
  slices_S91x48_o30_0_S1x48 : S91x48.Slices ![30, 0] S1x48
  slices_S91x48_o31_0_S1x48 : S91x48.Slices ![31, 0] S1x48
  slices_S91x48_o32_0_S1x48 : S91x48.Slices ![32, 0] S1x48
  slices_S91x48_o33_0_S1x48 : S91x48.Slices ![33, 0] S1x48
  slices_S91x48_o34_0_S1x48 : S91x48.Slices ![34, 0] S1x48
  slices_S91x48_o35_0_S1x48 : S91x48.Slices ![35, 0] S1x48
  slices_S91x48_o36_0_S1x48 : S91x48.Slices ![36, 0] S1x48
  slices_S91x48_o37_0_S1x48 : S91x48.Slices ![37, 0] S1x48
  slices_S91x48_o38_0_S1x48 : S91x48.Slices ![38, 0] S1x48
  slices_S91x48_o39_0_S1x48 : S91x48.Slices ![39, 0] S1x48
  slices_S91x48_o40_0_S1x48 : S91x48.Slices ![40, 0] S1x48
  slices_S91x48_o41_0_S1x48 : S91x48.Slices ![41, 0] S1x48
  slices_S91x48_o42_0_S1x48 : S91x48.Slices ![42, 0] S1x48
  slices_S91x48_o43_0_S1x48 : S91x48.Slices ![43, 0] S1x48
  slices_S91x48_o44_0_S1x48 : S91x48.Slices ![44, 0] S1x48
  slices_S91x48_o45_0_S1x48 : S91x48.Slices ![45, 0] S1x48
  slices_S91x48_o46_0_S1x48 : S91x48.Slices ![46, 0] S1x48
  slices_S91x48_o47_0_S1x48 : S91x48.Slices ![47, 0] S1x48
  slices_S91x48_o48_0_S1x48 : S91x48.Slices ![48, 0] S1x48
  slices_S91x48_o49_0_S1x48 : S91x48.Slices ![49, 0] S1x48
  slices_S91x48_o50_0_S1x48 : S91x48.Slices ![50, 0] S1x48
  slices_S91x48_o51_0_S1x48 : S91x48.Slices ![51, 0] S1x48
  slices_S91x48_o52_0_S1x48 : S91x48.Slices ![52, 0] S1x48
  slices_S91x48_o53_0_S1x48 : S91x48.Slices ![53, 0] S1x48
  slices_S91x48_o54_0_S1x48 : S91x48.Slices ![54, 0] S1x48
  slices_S91x48_o55_0_S1x48 : S91x48.Slices ![55, 0] S1x48
  slices_S91x48_o56_0_S1x48 : S91x48.Slices ![56, 0] S1x48
  slices_S91x48_o57_0_S1x48 : S91x48.Slices ![57, 0] S1x48
  slices_S91x48_o58_0_S1x48 : S91x48.Slices ![58, 0] S1x48
  slices_S91x48_o59_0_S1x48 : S91x48.Slices ![59, 0] S1x48
  slices_S91x48_o60_0_S1x48 : S91x48.Slices ![60, 0] S1x48
  slices_S91x48_o61_0_S1x48 : S91x48.Slices ![61, 0] S1x48
  slices_S91x48_o62_0_S1x48 : S91x48.Slices ![62, 0] S1x48
  slices_S91x48_o63_0_S1x48 : S91x48.Slices ![63, 0] S1x48
  slices_S91x48_o64_0_S1x48 : S91x48.Slices ![64, 0] S1x48
  slices_S91x48_o65_0_S1x48 : S91x48.Slices ![65, 0] S1x48
  slices_S91x48_o66_0_S1x48 : S91x48.Slices ![66, 0] S1x48
  slices_S91x48_o67_0_S1x48 : S91x48.Slices ![67, 0] S1x48
  slices_S91x48_o68_0_S1x48 : S91x48.Slices ![68, 0] S1x48
  slices_S91x48_o69_0_S1x48 : S91x48.Slices ![69, 0] S1x48
  slices_S91x48_o70_0_S1x48 : S91x48.Slices ![70, 0] S1x48
  slices_S91x48_o71_0_S1x48 : S91x48.Slices ![71, 0] S1x48
  slices_S91x48_o72_0_S1x48 : S91x48.Slices ![72, 0] S1x48
  slices_S91x48_o73_0_S1x48 : S91x48.Slices ![73, 0] S1x48
  slices_S91x48_o74_0_S1x48 : S91x48.Slices ![74, 0] S1x48
  slices_S91x48_o75_0_S1x48 : S91x48.Slices ![75, 0] S1x48
  slices_S91x48_o76_0_S1x48 : S91x48.Slices ![76, 0] S1x48
  slices_S91x48_o77_0_S1x48 : S91x48.Slices ![77, 0] S1x48
  slices_S91x48_o78_0_S1x48 : S91x48.Slices ![78, 0] S1x48
  slices_S91x48_o79_0_S1x48 : S91x48.Slices ![79, 0] S1x48
  slices_S91x48_o80_0_S1x48 : S91x48.Slices ![80, 0] S1x48
  slices_S91x48_o81_0_S1x48 : S91x48.Slices ![81, 0] S1x48
  slices_S91x48_o82_0_S1x48 : S91x48.Slices ![82, 0] S1x48
  slices_S91x48_o83_0_S1x48 : S91x48.Slices ![83, 0] S1x48
  slices_S91x48_o84_0_S1x48 : S91x48.Slices ![84, 0] S1x48
  slices_S91x48_o85_0_S1x48 : S91x48.Slices ![85, 0] S1x48
  slices_S91x48_o86_0_S1x48 : S91x48.Slices ![86, 0] S1x48
  slices_S91x48_o87_0_S1x48 : S91x48.Slices ![87, 0] S1x48
  slices_S91x48_o88_0_S1x48 : S91x48.Slices ![88, 0] S1x48
  slices_S91x48_o89_0_S1x48 : S91x48.Slices ![89, 0] S1x48
  slices_S91x48_o90_0_S1x48 : S91x48.Slices ![90, 0] S1x48
  shapeCasts_S1048576x48_S16x256x256x48 : S1048576x48.ShapeCasts S16x256x256x48
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x48.size a ≤ S1048576x48.size a
  hwx0_0 : ∀ i : grid0.Coords, EltTy.bits .f32 = 32 ∨ (Rect.block (s := S1048576x48) S8192x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S91x48.size a ≤ S91x48.size a
  hwx0_1 : ∀ i : grid0.Coords, EltTy.bits .f32 = 32 ∨ (Rect.block (s := S91x48) S91x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x48.size a ≤ S1048576x48.size a
  hwx0_2 : ∀ i : grid0.Coords, EltTy.bits .f32 = 32 ∨ (Rect.block (s := S1048576x48) S8192x48.size (cc0_transform_2 i) (hinb0_2 i)).WholeWords (EltTy.packing .f32)

variable [Facts₀]

abbrev win0_0 : Pipeline.Window sig grid0 :=
  Pipeline.Window.ofSpec (Memref.whole main_v0) S8192x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S91x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x256x48 : Shape := ⟨4, ![16, 256, 256, 48]⟩
abbrev S91x48 : Shape := ⟨2, ![91, 48]⟩
abbrev S1048576x48 : Shape := ⟨2, ![1048576, 48]⟩
abbrev S_ : Shape := ⟨0, ![]⟩
abbrev S1048576x48x1 : Shape := ⟨3, ![1048576, 48, 1]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S16x256x256x48, .f32⟩
  | .hbm, ⟨1, _⟩ => ⟨S91x48, .f32⟩
  | .hbm, ⟨2, _⟩ => ⟨S1048576x48, .f32⟩
  | .hbm, ⟨3, _⟩ => ⟨S_, .f32⟩
  | .hbm, ⟨4, _⟩ => ⟨S1048576x48, .f32⟩
  | .hbm, ⟨5, _⟩ => ⟨S1048576x48, .f32⟩
  | .hbm, ⟨6, _⟩ => ⟨S_, .f32⟩
  | .hbm, ⟨7, _⟩ => ⟨S1048576x48, .f32⟩
  | .hbm, ⟨8, _⟩ => ⟨S1048576x48, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1048576x48, .f32⟩
  | .hbm, ⟨13, _⟩ => ⟨S1048576x48, .f32⟩
  | .hbm, ⟨14, _⟩ => ⟨S_, .f32⟩
  | .hbm, ⟨15, _⟩ => ⟨S1048576x48, .f32⟩
  | .hbm, ⟨16, _⟩ => ⟨S1048576x48, .f32⟩
  | .hbm, ⟨17, _⟩ => ⟨S1048576x48, .f32⟩
  | .hbm, ⟨18, _⟩ => ⟨S1048576x48, .f32⟩
  | .hbm, ⟨19, _⟩ => ⟨S1048576x48, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1048576x48, .i32⟩
  | .hbm, ⟨24, _⟩ => ⟨S1048576x48, .i32⟩
  | .hbm, ⟨25, _⟩ => ⟨S_, .i32⟩
  | .hbm, ⟨26, _⟩ => ⟨S1048576x48, .i32⟩
  | .hbm, ⟨27, _⟩ => ⟨S1048576x48, .i32⟩
  | .hbm, ⟨28, _⟩ => ⟨S_, .i32⟩
  | .hbm, ⟨29, _⟩ => ⟨S1048576x48, .i32⟩
  | .hbm, ⟨30, _⟩ => ⟨S1048576x48, .i32⟩
  | .hbm, ⟨31, _⟩ => ⟨S_, .i32⟩
  | .hbm, ⟨32, _⟩ => ⟨S1048576x48, .i32⟩
  | .hbm, ⟨33, _⟩ => ⟨S1048576x48, .i1⟩
  | .hbm, ⟨34, _⟩ => ⟨S_, .i32⟩
  | .hbm, ⟨35, _⟩ => ⟨S1048576x48, .i32⟩
  | .hbm, ⟨36, _⟩ => ⟨S1048576x48, .i32⟩
  | .hbm, ⟨37, _⟩ => ⟨S1048576x48, .i32⟩
  | .hbm, ⟨38, _⟩ => ⟨S1048576x48x1, .i32⟩
  | .hbm, ⟨39, _⟩ => ⟨S1, .i32⟩
  | .hbm, ⟨40, _⟩ => ⟨S_, .i32⟩
  | .hbm, ⟨41, _⟩ => ⟨S1048576x48x1, .i32⟩
  | .hbm, ⟨42, _⟩ => ⟨S1048576x48x1, .i1⟩
  | .hbm, ⟨43, _⟩ => ⟨S1x1x1, .i32⟩
  | .hbm, ⟨44, _⟩ => ⟨S1048576x48x1, .i32⟩
  | .hbm, ⟨45, _⟩ => ⟨S1048576x48x1, .i1⟩
  | .hbm, ⟨46, _⟩ => ⟨S1048576x48x1, .i1⟩
  | .hbm, ⟨47, _⟩ => ⟨S_, .i1⟩
  | .hbm, ⟨48, _⟩ => ⟨S1048576x48, .i1⟩
  | .hbm, ⟨49, _⟩ => ⟨S1048576x48, .f32⟩
  | .hbm, ⟨50, _⟩ => ⟨S_, .f32⟩
  | .hbm, ⟨51, _⟩ => ⟨S1048576x48, .f32⟩
  | .hbm, ⟨52, _⟩ => ⟨S1048576x48, .f32⟩
  | .hbm, ⟨53, _⟩ => ⟨S_, .i32⟩
  | .hbm, ⟨54, _⟩ => ⟨S1048576x48, .i32⟩
  | .hbm, ⟨55, _⟩ => ⟨S1048576x48, .i1⟩
  | .hbm, ⟨56, _⟩ => ⟨S_, .i32⟩
  | .hbm, ⟨57, _⟩ => ⟨S1048576x48, .i32⟩
  | .hbm, ⟨58, _⟩ => ⟨S1048576x48, .i32⟩
  | .hbm, ⟨59, _⟩ => ⟨S1048576x48, .i32⟩
  | .hbm, ⟨60, _⟩ => ⟨S1048576x48x1, .i32⟩
  | .hbm, ⟨61, _⟩ => ⟨S1, .i32⟩
  | .hbm, ⟨62, _⟩ => ⟨S_, .i32⟩
  | .hbm, ⟨63, _⟩ => ⟨S1048576x48x1, .i32⟩
  | .hbm, ⟨64, _⟩ => ⟨S1048576x48x1, .i1⟩
  | .hbm, ⟨65, _⟩ => ⟨S1x1x1, .i32⟩
  | .hbm, ⟨66, _⟩ => ⟨S1048576x48x1, .i32⟩
  | .hbm, ⟨67, _⟩ => ⟨S1048576x48x1, .i1⟩
  | .hbm, ⟨68, _⟩ => ⟨S1048576x48x1, .i1⟩
  | .hbm, ⟨69, _⟩ => ⟨S_, .i1⟩
  | .hbm, ⟨70, _⟩ => ⟨S1048576x48, .i1⟩
  | .hbm, ⟨71, _⟩ => ⟨S1048576x48, .f32⟩
  | .hbm, ⟨72, _⟩ => ⟨S_, .f32⟩
  | .hbm, ⟨73, _⟩ => ⟨S1048576x48, .f32⟩
  | .hbm, ⟨74, _⟩ => ⟨S1048576x48, .f32⟩
  | .hbm, ⟨75, _⟩ => ⟨S_, .f32⟩
  | .hbm, ⟨76, _⟩ => ⟨S1048576x48, .f32⟩
  | .hbm, ⟨77, _⟩ => ⟨S1048576x48, .f32⟩
  | .hbm, ⟨78, _⟩ => ⟨S1048576x48, .f32⟩
  | .hbm, ⟨79, _⟩ => ⟨S1048576x48, .f32⟩
  | .hbm, ⟨80, _⟩ => ⟨S1048576x48, .f32⟩
  | .hbm, ⟨81, _⟩ => ⟨S16x256x256x48, .f32⟩
  | _, _ => ⟨S16x256x256x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v12 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v13 : Ref sig .tc := ⟨.hbm, 74, rfl⟩
abbrev main_cst_5 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩

abbrev nD : Nat := 1
abbrev τ : Topo := Topo.v7x

variable {F : FTy → Type} [FloatOps F]

class Facts₀ : Prop where
  shapeCasts_S16x256x256x48_S1048576x48 : S16x256x256x48.ShapeCasts S1048576x48
  bcast_S_S1048576x48 : S_.BroadcastsInDim S1048576x48 (![] : Fin 0 → Fin S1048576x48.rank)
  shapeCasts_S1048576x48_S1048576x48x1 : S1048576x48.ShapeCasts S1048576x48x1
  bcast_S_S1048576x48x1 : S_.BroadcastsInDim S1048576x48x1 (![] : Fin 0 → Fin S1048576x48x1.rank)
  bcast_S1_S1x1x1_2 : S1.BroadcastsInDim S1x1x1 (![2] : Fin 1 → Fin S1x1x1.rank)
  bcast_S1x1x1_S1048576x48x1_0_1_2 : S1x1x1.BroadcastsInDim S1048576x48x1 (![0, 1, 2] : Fin 3 → Fin S1048576x48x1.rank)
  reducesTo_S1048576x48x1_S1048576x48_d2 : S1048576x48x1.ReducesTo [2] S1048576x48
  h_S_ : 0 < S_.numel
  shapeCasts_S1048576x48_S16x256x256x48 : S1048576x48.ShapeCasts S16x256x256x48
  gather_S91x48_S1048576x48x1_S1048576x48_n_0_1_1_0_2_11_wf : GatherDims.WF S91x48 S1048576x48x1 S1048576x48 [] [0] [1] [0] [1] 2 ![1, 1]

variable [Facts₀]

def gather_S91x48_S1048576x48x1_S1048576x48_n_0_1_1_0_2_11 : GatherDims S91x48 S1048576x48x1 S1048576x48 where
  offsetDims := []
  collapsedSliceDims := [0]
  operandBatchingDims := [1]
  startIndicesBatchingDims := [1]
  startIndexMap := [0]
  indexVectorDim := 2
  sliceSizes := ![1, 1]
  wf := gather_S91x48_S1048576x48x1_S1048576x48_n_0_1_1_0_2_11_wf

class Facts : Prop extends Facts₀ where

variable [Facts]
-- ==== Proof.Interp.lean ====
/-
  Piecewise-linear interpolation on a knot table, as pure arithmetic on the extended reals.

  A sample picks a knot `j` (a 32-bit integer clamped into `[0, 89]`) and a fraction `f`; its value is
  `r j * w + f * r (j + 1)`, where `r` is the sample's column of the table and `w` the weight kept for the
  lower knot.  The same value can be had without indexing the table at `j`: sweep all 91 knots and add, at knot
  `n`, the row `r n` weighted by `[j = n] * w + [j = n - 1] * f`.  Only the knots `j` and `j + 1` have a
  nonzero weight, and on the extended reals `0 * x = 0` for every `x`, so the sweep `acc … 91` is the two-term
  value whatever `w`, `f` and the table hold (`acc_all`).
-/
import Idealize.ShloMosaic.PureOps.Ideal
import Idealize.ShloMosaic.PureOps.Ideal.Laws
import Idealize.ShloMosaic.Lib.ValueIdx

noncomputable section

namespace Cert.Knots

open Idealize.ShloMosaic Idealize.ShloMosaic.ValueIdx

/-- The indicator of knot `n` at the integer `j`, as the programs compute it: the one-bit comparison widened to
    32 bits and read as a signed integer. -/
def ind (j : BitVec 32) (n : ℕ) : EReal :=
  FloatOps.sitofp (F := Ideal) .f32 ((IntOp.cmpi .eq j (BitVec.ofNat 32 n)).setWidth 32)

/-- It is `1` at `j = n` and `0` elsewhere. -/
theorem ind_eq (j : BitVec 32) (n : ℕ) : ind j n = if j = BitVec.ofNat 32 n then 1 else 0 := by
  unfold ind IntOp.cmpi
  by_cases h : j = BitVec.ofNat 32 n
  · rw [if_pos h]
    have e : (BitVec.ofBool (j == BitVec.ofNat 32 n)).setWidth 32 = 1#32 := by
      rw [show (j == BitVec.ofNat 32 n) = true from by simpa using h]; decide
    rw [e]
    show (((1#32 : BitVec 32).toInt : ℝ) : EReal) = 1
    rw [show (1#32 : BitVec 32).toInt = 1 from by decide]; norm_num
  · rw [if_neg h]
    have e : (BitVec.ofBool (j == BitVec.ofNat 32 n)).setWidth 32 = 0#32 := by
      rw [show (j == BitVec.ofNat 32 n) = false from by simpa using h]; decide
    rw [e]
    show (((0#32 : BitVec 32).toInt : ℝ) : EReal) = 0
    rw [show (0#32 : BitVec 32).toInt = 0 from by decide]; norm_num

/-- For a knot `J` and a knot number `n` that both fit in 32 bits, the indicator compares the numbers. -/
theorem ind_ofNat (J n : ℕ) (hJ : J < 2 ^ 32) (hn : n < 2 ^ 32) : ind (BitVec.ofNat 32 J) n = if n = J then 1 else 0 := by
  rw [ind_eq]
  by_cases h : n = J
  · subst h; rw [if_pos rfl, if_pos rfl]
  · rw [if_neg h, if_neg]
    intro e
    have := congrArg BitVec.toNat e
    simp only [BitVec.toNat_ofNat] at this
    rw [Nat.mod_eq_of_lt hJ, Nat.mod_eq_of_lt hn] at this
    exact h this.symm

/-- The weight the sweep gives the knot before `n`: none before the first. -/
def before (a : ℕ → EReal) : ℕ → EReal
  | 0 => 0
  | n + 1 => a n

/-- The sweep over the first `n` knots: at knot `k` the row `r k` enters with the weight
    `a k * w + before a k * f`. -/
def acc (w f : EReal) (a r : ℕ → EReal) : ℕ → EReal
  | 0 => 0
  | n + 1 => acc w f a r n + (a n * w + before a n * f) * r n

/-- The sweep's value after `n` knots, when the indicator `a` marks the one knot `J`: the lower term once the
    sweep has passed `J`, the upper term once it has passed `J + 1`. -/
theorem acc_upto (w f : EReal) (a r : ℕ → EReal) (J : ℕ) (N : ℕ) (ha : ∀ n, n < N → a n = if n = J then 1 else 0) :
    ∀ n, n ≤ N → acc w f a r n = (if J < n then w * r J else 0) + (if J + 1 < n then f * r (J + 1) else 0) := by
  intro n
  induction n with
  | zero => intro _; simp [acc]
  | succ n ih =>
    intro hn
    have hn' : n < N := hn
    rw [acc, ih (Nat.le_of_lt hn'), ha n hn']
    have hb : before a n = if n = J + 1 then 1 else 0 := by
      cases n with
      | zero => simp [before]
      | succ k =>
        rw [before, ha k (Nat.lt_of_succ_lt hn')]
        by_cases h : k = J
        · subst h; rw [if_pos rfl, if_pos rfl]
        · rw [if_neg h, if_neg (by omega)]
    rw [hb]
    rcases Nat.lt_trichotomy n J with h | h | h
    · have c1 : ¬ n = J := by omega
      have c2 : ¬ n = J + 1 := by omega
      have c3 : ¬ J < n := by omega
      have c4 : ¬ J + 1 < n := by omega
      have c5 : ¬ J < n + 1 := by omega
      have c6 : ¬ J + 1 < n + 1 := by omega
      simp [c1, c2, c3, c4, c5, c6]
    · subst h
      have c2 : ¬ n = n + 1 := by omega
      have c4 : ¬ n + 1 < n := by omega
      simp [c2, c4]
    · rcases Nat.eq_or_lt_of_le (Nat.succ_le_of_lt h) with e | e
      · have e' : n = J + 1 := e.symm
        subst e'
        have c1 : ¬ J + 1 = J := by omega
        simp [c1]
      · have c1 : ¬ n = J := by omega
        have c2 : ¬ n = J + 1 := by omega
        have c3 : J < n := h
        have c4 : J + 1 < n := e
        have c5 : J < n + 1 := by omega
        have c6 : J + 1 < n + 1 := by omega
        simp [c1, c2, c3, c4, c5, c6]

/-- THE LAW that joins the two programs: a sweep of all 91 knots with the indicator of a knot `J ≤ 89` is the
    two-term interpolation between rows `J` and `J + 1`. -/
theorem acc_all (w f : EReal) (r : ℕ → EReal) (J : ℕ) (hJ : J ≤ 89) :
    acc w f (ind (BitVec.ofNat 32 J)) r 91 = r J * w + f * r (J + 1) := by
  rw [acc_upto w f (ind (BitVec.ofNat 32 J)) r J 91
      (fun n hn => ind_ofNat J n (by omega) (by omega)) 91 (Nat.le_refl _),
    if_pos (by omega), if_pos (by omega), mul_comm w]

/-! ## A 32-bit integer clamped into `[0, 89]` -/

/-- The clamped integer `min 89 (max 0 z)`, signed, as the programs compute it. -/
def clamp (z : BitVec 32) : BitVec 32 := IntOp.minsi 89#32 (IntOp.maxsi 0#32 z)

/-- It lies in `[0, 89]` whatever `z` is. -/
theorem clamp_range (z : BitVec 32) : 0 ≤ (clamp z).toInt ∧ (clamp z).toInt ≤ 89 := by
  unfold clamp IntOp.minsi IntOp.maxsi
  have h0 : (0#32 : BitVec 32).toInt = 0 := by decide
  have h89 : (89#32 : BitVec 32).toInt = 89 := by decide
  simp only [BitVec.slt, decide_eq_true_eq]
  split_ifs <;> omega

/-- The knot number of a clamped integer. -/
def knotOf (z : BitVec 32) : ℕ := (clamp z).toInt.toNat

theorem knotOf_le (z : BitVec 32) : knotOf z ≤ 89 := by
  have := clamp_range z; unfold knotOf; omega

/-- The clamped integer is its knot number as a 32-bit word. -/
theorem clamp_eq (z : BitVec 32) : clamp z = BitVec.ofNat 32 (knotOf z) := by
  have h := (clamp_range z).1
  have hlt := (clamp z).isLt
  apply BitVec.eq_of_toNat_eq
  unfold knotOf
  rw [BitVec.toNat_ofNat]
  rw [BitVec.toInt_eq_toNat_cond] at h ⊢
  split_ifs at h ⊢ <;> omega

/-! ## A knot number as a 32-bit word, under the reference's range tests -/

/-- A natural number below `2 ^ 31`, as a 32-bit word, reads back signed as itself. -/
theorem toInt_ofNat_small (n : ℕ) (h : n < 2 ^ 31) : (BitVec.ofNat 32 n).toInt = n := by
  rw [BitVec.toInt_eq_toNat_cond, BitVec.toNat_ofNat]
  have e : n % 2 ^ 32 = n := Nat.mod_eq_of_lt (by omega)
  rw [e]
  split_ifs <;> omega

/-- A knot number is not negative … -/
theorem not_neg (n : ℕ) (h : n ≤ 90) : IntOp.cmpi .slt (BitVec.ofNat 32 n) 0#32 = 0#1 := by
  unfold IntOp.cmpi
  have h0 : (0#32 : BitVec 32).toInt = 0 := by decide
  simp only [BitVec.slt, toInt_ofNat_small n (by omega), h0]
  rw [decide_eq_false (by omega)]; rfl

/-- … it is at least zero … -/
theorem ge_zero (n : ℕ) (h : n ≤ 90) : IntOp.cmpi .sge (BitVec.ofNat 32 n) 0#32 = 1#1 := by
  unfold IntOp.cmpi
  have h0 : (0#32 : BitVec 32).toInt = 0 := by decide
  simp only [BitVec.sle, toInt_ofNat_small n (by omega), h0]
  rw [decide_eq_true (by omega)]; rfl

/-- … and at most the last row's number. -/
theorem le_last (n : ℕ) (h : n ≤ 90) : IntOp.cmpi .sle (BitVec.ofNat 32 n) 90#32 = 1#1 := by
  unfold IntOp.cmpi
  have h90 : (90#32 : BitVec 32).toInt = 90 := by decide
  simp only [BitVec.sle, toInt_ofNat_small n (by omega), h90]
  rw [decide_eq_true (by omega)]; rfl

/-- The row the gather reads at a knot number: the number itself. -/
theorem row_of (n : ℕ) (h : n ≤ 90) : min (BitVec.ofNat 32 n).toInt.toNat 90 = n := by
  rw [toInt_ofNat_small n (by omega)]; omega

/-- The next knot's word. -/
theorem succ_word (n : ℕ) : IntOp.addi (BitVec.ofNat 32 n) 1#32 = BitVec.ofNat 32 (n + 1) := by
  unfold IntOp.addi
  rw [BitVec.ofNat_add]

/-! ## One sample: its place among the knots, and its interpolated value -/

/-- The sample's position on the knot axis: `(x + 3) / w` for the knot spacing's float `w`, clamped between the
    two floats just inside `[0, 90]`.  Whatever `x` is, the position is between those two floats. -/
def pos (x : EReal) : EReal :=
  min (Ideal.ofBits .f32 0x42B3FFFF#32)
    (max (Ideal.ofBits .f32 0x3727C5AC#32) (Ideal.div (x - Ideal.ofBits .f32 0xC0400000#32) (Ideal.ofBits .f32 0x3D888889#32)))

/-- The knot below the position, as an extended real. -/
def low (x : EReal) : EReal := Ideal.liftRound Int.floor (pos x)

/-- The fraction of the way to the next knot. -/
def frac (x : EReal) : EReal := pos x - low x

/-- The weight of the lower knot, `1 - frac`. -/
def lowWeight (x : EReal) : EReal := Ideal.ofBits .f32 0x3F800000#32 - frac x

/-- The lower knot as a 32-bit integer, clamped into `[0, 89]`. -/
def knot (x : EReal) : BitVec 32 := clamp (Ideal.fptosi 32 (low x))

/-- The sample's value: the table's column `r` interpolated between the knot and the next one. -/
def interp (x : EReal) (r : ℕ → EReal) : EReal :=
  r (knotOf (Ideal.fptosi 32 (low x))) * lowWeight x + frac x * r (knotOf (Ideal.fptosi 32 (low x)) + 1)

/-- The sweep of all 91 knots with the sample's own weights is the sample's interpolated value. -/
theorem acc_interp (x : EReal) (r : ℕ → EReal) : acc (lowWeight x) (frac x) (ind (knot x)) r 91 = interp x r := by
  unfold knot interp
  rw [clamp_eq, acc_all _ _ _ _ (knotOf_le _)]

/-- Column `q` of a `[91, 48]` table as a function of the knot number (zero past the last knot, never read). -/
def col (K : (⟨2, ![91, 48]⟩ : Shape).Idx → EReal) (q : Fin 48) (n : ℕ) : EReal :=
  if h : n < 91 then K (ix2 (⟨n, h⟩ : Fin 91) q) else 0

/-- THE SPECIFICATION on the flattened sample array `[N, 48]`: every sample interpolated in its channel's column. -/
def spline {N : ℕ} (X : (⟨2, ![N, 48]⟩ : Shape).Idx → EReal) (K : (⟨2, ![91, 48]⟩ : Shape).Idx → EReal) :
    (⟨2, ![N, 48]⟩ : Shape).Idx → EReal :=
  fun i => interp (X i) (col K (i 1))

end Cert.Knots

end
-- ==== Proof.Sweep.lean ====
/-
  What the idealized kernel's body stores, read at one index of the block.

  The body holds, per sample, the fraction `f`, the lower knot's weight `w` and the clamped knot number `j`.
  Then it sweeps the 91 rows of the table: at row `n` it adds `([j = n] * w + [j = n - 1] * f) * table[n, q]`,
  `q` the sample's channel.  Written over the knots module's `acc`, the stored value at index `i` is the sweep of
  all 91 knots with the indicator of `j` over column `i 1` of the table.
-/
import proofs.«175676_j48223892799740_1_alg».proof.Proof.Gen.KernelIdeal.Frame
import proofs.«175676_j48223892799740_1_alg».proof.Proof.Interp
import Idealize.ShloMosaic.Lib.ValueIdx
import Idealize.ShloMosaic.Lib.Pipeline.Value
import Idealize.ShloMosaic.PureOps.Ideal.Laws

set_option maxRecDepth 16384

noncomputable section

namespace Cert.KernelIdeal.Sweep

open Cert.KernelIdeal Cert.KernelIdeal.Gen Idealize.ShloMosaic Idealize.ShloMosaic.ValueIdx Idealize.ShloMosaic.Pipeline
open Cert.Knots

theorem hz : (![0, 0] : Fin 2 → Nat) = fun _ => 0 := funext fun a => by fin_cases a <;> rfl

/-- Row `n` of the table, taken as a `[1, 48]` slice, flattened, unflattened and broadcast down the block's rows,
    read at block index `i`: the table at knot `n`, channel `i 1`. -/
theorem row_apply (n : ℕ) (hn : n < 91) (K : FVec Ideal S91x48 .f32) (h1 : S91x48.Slices ![n, 0] S1x48)
    (h2 : S1x48.ShapeCasts S48) (h3 : S48.ShapeCasts S1x48) (h4 : S1x48.Broadcasts S8192x48) (i : S8192x48.Idx) :
    broadcastTo S8192x48 (shapeCast S1x48 (shapeCast S48 (extractStridedSlice S1x48 ![n, 0] K h1) h2) h3) h4 i
      = col K (i 1) n := by
  unfold col
  rw [dif_pos hn]
  refine (broadcastTo_apply _ h4 i (ix2 (0 : Fin 1) (i 1)) (fun a => ?_)).trans ?_
  · match a with
    | ⟨0, _⟩ => rfl
    | ⟨1, _⟩ => rfl
  refine (shapeCast_apply _ h3 (ix2 (0 : Fin 1) (i 1)) (ix1 (i 1)) ?_).trans ?_
  · rw [Shape.rowMajor_val_one, Shape.rowMajor_val_two]; simp
  refine (shapeCast_apply _ h2 (ix1 (i 1)) (ix2 (0 : Fin 1) (i 1)) ?_).trans ?_
  · rw [Shape.rowMajor_val_one, Shape.rowMajor_val_two]; simp
  refine extractStridedSlice_apply _ K h1 (ix2 (0 : Fin 1) (i 1)) (ix2 (⟨n, hn⟩ : Fin 91) (i 1)) (fun a => ?_)
  match a with
  | ⟨0, _⟩ => show n = n + 0; omega
  | ⟨1, _⟩ => show (i 1).val = 0 + (i 1).val; omega

/-- The body's mask for knot `n`, widened and converted, at an index: the indicator of `n` at the sample's knot. -/
theorem mask_apply (ix : IVec S8192x48 32) (n : ℕ) (h : 1 < 32) (i : S8192x48.Idx) :
    (sitofp .f32 (extui 32 (cmpi .eq ix (broadcast S8192x48 (BitVec.ofNat 32 n))) h) : FVec Ideal S8192x48 .f32) i
      = ind (ix i) n := rfl

/-- The float literal zero is the real zero. -/
theorem zero_lit : (Scalar.ofBits (F := Ideal) .f32 0x00000000#32 : EReal) = 0 := Ideal.ofBits_zero_f32

set_option maxHeartbeats 4000000 in
/-- THE STORED VALUE at block index `i`: the sweep of all 91 knots, with the body's own fraction
    (`k0_pay4`), lower weight (`k0_pay6`) and clamped knot (`k0_pay5`) of the sample block `x0`, over column
    `i 1` of the table block `x1`. -/
theorem stored_apply (x0 : Vec Ideal S8192x48 .f32) (x1 : Vec Ideal S91x48 .f32) (i : S8192x48.Idx) :
    out0_2 x0 x1 i = acc (k0_pay6 x0 i) (k0_pay4 x0 i) (ind (k0_pay5 x0 i)) (col x1 (i 1)) 91 := by
  unfold out0_2
  rw [View.canon_unit_zero hz]
  simp only [View.ld_unit_zero (S := S8192x48) hz, View.ld_unit_zero (S := S91x48) hz]
  simp only [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
  simp only [addf_apply, mulf_apply, mask_apply, broadcast_apply, zero_lit]
  simp (disch := omega) only [row_apply]
  simp only [acc, before]

end Cert.KernelIdeal.Sweep

end
-- ==== Proof.KernelValue.lean ====
/-
  The idealized kernel's result, as one function of its arguments.

  @main flattens the samples to `[1048576, 48]`, runs the kernel over 128 blocks of 8192 rows with the whole table
  resident, and reshapes the result back.  Block `t` of the output is written from block `t` of the samples and
  the whole table; by the sweep's closed form every entry it writes is the sample interpolated in its channel's column
  of the table, so the 128 blocks, which tile the array, leave the array at the specification `spline` of the
  flattened samples, and @main's result is that array reshaped.
-/
import proofs.«175676_j48223892799740_1_alg».proof.Proof.Sweep
import Idealize.ShloMosaic.Lib.Pipeline.Value
import Idealize.ShloMosaic.Lib.StableHlo.Run
import Idealize.ShloMosaic.Lib.ValueIdx

set_option maxRecDepth 16384

noncomputable section

namespace Cert.KernelIdeal.ArrValue

open Cert.KernelIdeal Cert.KernelIdeal.Gen Cert.KernelIdeal.Sweep Cert.Knots
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## One sample: what the body computes of it is what the specification names -/

theorem frac_apply (x0 : Vec Ideal S8192x48 .f32) (i : S8192x48.Idx) : k0_pay4 x0 i = frac (x0 i) := by
  unfold k0_pay4 k0_pay3 k0_pay2
  simp only [shapeCast_self]
  rfl

theorem weight_apply (x0 : Vec Ideal S8192x48 .f32) (i : S8192x48.Idx) : k0_pay6 x0 i = lowWeight (x0 i) := by
  unfold k0_pay6 lowWeight
  show Ideal.ofBits .f32 0x3F800000#32 - k0_pay4 x0 i = _
  rw [frac_apply]

theorem knot_apply (x0 : Vec Ideal S8192x48 .f32) (i : S8192x48.Idx) : k0_pay5 x0 i = knot (x0 i) := by
  unfold k0_pay5 k0_pay3 k0_pay2
  simp only [shapeCast_self]
  rfl

/-! ## The arrays as the region finds them, and their blocks -/

/-- The flattened samples … -/
abbrev samples (c : Dev nD) : FVec Ideal S1048576x48 .f32 := V m c main_v0
/-- … and the table. -/
abbrev table (c : Dev nD) : FVec Ideal S91x48 .f32 := V m c main_arg1

/-- The one host line before the region reshapes the first argument. -/
theorem samples_eq (c : Dev nD) :
    samples m c = shapeCast S1048576x48 (m ((c : Thread nD τ).loc main_arg0)) shapeCasts_S16x256x256x48_S1048576x48 := by
  show StableHlo.after hostOps0 (fun b => m (c, b)) (Proc.devRef .tc main_v0) = _
  after_results
  rfl

theorem table_eq (c : Dev nD) : table m c = m ((c : Thread nD τ).loc main_arg1) := V_main_arg1 m c

/-- Block `t` of the samples, and of the table, under their literal types. -/
abbrev sblk (c : Dev nD) (t : Fin cfg0.N) : Vec Ideal S8192x48 .f32 := iblk m c 0 t
abbrev kblk (c : Dev nD) (t : Fin cfg0.N) : Vec Ideal S91x48 .f32 := iblk m c 1 t

/-- The printed index maps over the 128 points: samples and output move together down the rows, the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 128, ∃ t : Fin cfg0.N, win0_2.index t = ![q0.val, 0] :=
  (by decide +kernel : ∀ q0 : Fin 128, ∃ t : Fin grid0.N, win0_2.index t = ![q0.val, 0])

/-- The samples' block reads the flattened samples where the output's block sits. -/
theorem sblk_apply (c : Dev nD) (t : Fin cfg0.N) (j : S8192x48.Idx) :
    sblk m c t j = samples m c (((cfg0.win 2).blk t).view.emb j) := by
  obtain ⟨e0, e1, -, -, e4, e5⟩ := idx_facts t
  show V m c main_v0 (((cfg0.win 0).blk t).view.emb j) = V m c main_v0 (((cfg0.win 2).blk t).view.emb j)
  refine congrArg (V m c main_v0) ?_
  funext a; apply Fin.ext
  match a with
  | ⟨0, _⟩ => show win0_0.index t (0 : Fin 2) * 8192 + 1 * (j 0).val = win0_2.index t (0 : Fin 2) * 8192 + 1 * (j 0).val; omega
  | ⟨1, _⟩ => show win0_0.index t (1 : Fin 2) * 48 + 1 * (j 1).val = win0_2.index t (1 : Fin 2) * 48 + 1 * (j 1).val; omega

/-- The table's block is the whole table. -/
theorem kblk_eq (c : Dev nD) (t : Fin cfg0.N) : kblk m c t = table m c := by
  obtain ⟨-, -, e2, e3, -, -⟩ := idx_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 91 + 1 * (y 0).val = (y 0).val; omega
  | ⟨1, _⟩ => show win0_1.index t (1 : Fin 2) * 48 + 1 * (y 1).val = (y 1).val; omega

/-- An entry of the output's block keeps its channel. -/
theorem chan_eq (t : Fin cfg0.N) (j : S8192x48.Idx) : (((cfg0.win 2).blk t).view.emb j) 1 = j 1 := by
  obtain ⟨-, -, -, -, -, e5⟩ := idx_facts t
  apply Fin.ext
  show win0_2.index t (1 : Fin 2) * 48 + 1 * (j 1).val = (j 1).val
  omega

/-! ## What a point writes back, the cover, the array -/

/-- WHAT POINT `t` WRITES BACK is block `t` of the specification of the flattened samples and the table. -/
theorem flushed_eq (c : Dev nD) (t : Fin cfg0.N) :
    (dats m 0 c).flushed 2 t = ((cfg0.win 2).blk t).view.read (Elt Ideal) (spline (samples m c) (table m c)) := by
  show (cfg0.win 2).cut (grid0.coords t) ((dats m 0 c).after 2 t) = _
  rw [after0_2]
  funext j
  show out0_2 (sblk m c t) (kblk m c t) j = spline (samples m c) (table m c) (((cfg0.win 2).blk t).view.emb j)
  refine (stored_apply (sblk m c t) (kblk m c t) j).trans ?_
  rw [frac_apply, weight_apply, knot_apply, acc_interp, kblk_eq, sblk_apply]
  show _ = interp (samples m c (((cfg0.win 2).blk t).view.emb j)) (col (table m c) ((((cfg0.win 2).blk t).view.emb j) 1))
  rw [chan_eq]

/-- An index of the array is in point `t`'s block iff each coordinate is in the block's range on its axis. -/
theorem mem_blk (t : Fin cfg0.N) (i : S1048576x48.Idx) :
    i ∈ ((cfg0.win 2).blk t).view.set ↔ ∀ a : Fin 2, win0_2.index t a * S8192x48.size a ≤ (i a).val ∧ (i a).val < win0_2.index t a * S8192x48.size a + S8192x48.size a := by
  show i ∈ ((View.whole main_v1).slice (win0_2.rect t)).set ↔ _
  rw [View.set_slice_whole, Rect.mem_set_unit]
  exact Iff.rfl

/-- The 128 row blocks cover the array: row `r` is in the block of point `r / 8192`. -/
theorem cover (i : S1048576x48.Idx) :
    ∃ t : Fin cfg0.N, (cfg0.win 2).flush t = true ∧ i ∈ ((cfg0.win 2).blk t).view.set := by
  have hi0 : (i 0).val < 1048576 := (i 0).isLt
  have hi1 : (i 1).val < 48 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 48 ≤ (i 1).val ∧ (i 1).val < win0_2.index t (1 : Fin 2) * 48 + 48; omega

/-- THE ARRAY after the region: the specification of the flattened samples and the table. -/
theorem final (c : Dev nD) : (dats m 0 c).arrAt 2 cfg0.N = spline (samples m c) (table m c) :=
  (dats m 0 c).arrAt_eq_of_cover 2 (spline (samples m c) (table m c)) (fun t _ => flushed_eq m c t) cover

/-! ## The host line after the region, and the run -/

/-- The one host line after the region reshapes the region's array into the result. -/
theorem tail_eq (c : Dev nD) :
    Pipeline.afterTail₀ cfgs (dats m) 0 (V0 m) [hostOps1] c main_v2
      = shapeCast S16x256x256x48 ((dats m 0 c).arrAt 2 cfg0.N) shapeCasts_S1048576x48_S16x256x256x48 := by
  unfold Pipeline.afterTail₀
  show StableHlo.after hostOps1 _ (Proc.devRef .tc main_v2) = _
  after_results
  rw [Pipeline.withArrays_arr spec0 launch0.win.arr_inj c _ _ 2]
  rfl

/-- THE RUN, read: @main's result is the specification of the flattened first argument and the table, reshaped; the
    arguments end unchanged. -/
theorem run : θ_run defs (onTc (τ := τ) (main (F := Ideal))) ⟨m, fun _ => 0, ρ⟩ fun r => ∀ c : Dev nD,
      r.2.mem ((c : Thread nD τ).loc main_v2)
        = shapeCast S16x256x256x48
            (spline (shapeCast S1048576x48 (m ((c : Thread nD τ).loc main_arg0)) shapeCasts_S16x256x256x48_S1048576x48)
              (m ((c : Thread nD τ).loc main_arg1)))
            shapeCasts_S1048576x48_S16x256x256x48
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v2 (Pipeline.mem_restRefs_of main_v2 (by decide) (by decide))).trans
        ((tail_eq m c).trans (by rw [final, samples_eq, table_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.ArrValue

end
-- ==== Proof.RefFold.lean ====
/-
  The reference program's run, read in five stretches.

  The reference computes, on the flattened sample array: the position among the knots (`posV`), its fraction
  (`fracV`) and clamped lower knot (`knotV`), the next knot (`nextV`), twice a guarded row lookup in the table
  (`takeV`: a negative index counted from the end, the index tested against `[0, 90]`, the row gathered, and NaN put
  where the test fails), and the two-term combination (`mixV`), reshaped back.  Its 80 host operations assign each
  buffer once, so the fold of the operations over the launch contents splits at any point into the fold of a prefix
  followed by the fold of the rest; each of the five stretches below is read for ANY contents `V` at its entry, and
  the stages compose.
-/
import proofs.«175676_j48223892799740_1_alg».proof.Proof.RefRun
import Idealize.ShloMosaic.Lib.StableHlo.Run

set_option maxRecDepth 16384

noncomputable section

namespace Cert.ReferenceIdeal.Fold

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! ## The stages -/

/-- The position among the knots. -/
def posV (X : FVec F S1048576x48 .f32) : FVec F S1048576x48 .f32 :=
  minimumf (broadcastInDim S1048576x48 ![] bcast_S_S1048576x48 (id (constant S_ .f32 0x42B3FFFF#32)))
    (maximumf (broadcastInDim S1048576x48 ![] bcast_S_S1048576x48 (id (constant S_ .f32 0x3727C5AC#32)))
      (Host.divf (subf X (broadcastInDim S1048576x48 ![] bcast_S_S1048576x48 (constant S_ .f32 0xC0400000#32))) (broadcastInDim S1048576x48 ![] bcast_S_S1048576x48 (constant S_ .f32 0x3D888889#32))))

/-- The fraction of the way to the next knot. -/
def fracV (P : FVec F S1048576x48 .f32) : FVec F S1048576x48 .f32 := subf P (Host.floor P)

/-- The lower knot, clamped into `[0, 89]`. -/
def knotV (P : FVec F S1048576x48 .f32) : IVec S1048576x48 32 :=
  minsi (broadcastInDim S1048576x48 ![] bcast_S_S1048576x48 (id (constantI S_ 32 89#32))) (maxsi (broadcastInDim S1048576x48 ![] bcast_S_S1048576x48 (id (constantI S_ 32 0#32))) (fptosi 32 (Host.floor P)))

/-- The knot after. -/
def nextV (I : IVec S1048576x48 32) : IVec S1048576x48 32 := addi I (broadcastInDim S1048576x48 ![] bcast_S_S1048576x48 (constantI S_ 32 1#32))

/-- An index with a negative one counted from the end (91 added), and a trailing unit axis. -/
def wrapV (I : IVec S1048576x48 32) : IVec S1048576x48x1 32 :=
  shapeCast S1048576x48x1 (select (cmpi .slt I (broadcastInDim S1048576x48 ![] bcast_S_S1048576x48 (constantI S_ 32 0#32))) (addi I (broadcastInDim S1048576x48 ![] bcast_S_S1048576x48 (constantI S_ 32 91#32))) I)
    shapeCasts_S1048576x48_S1048576x48x1

/-- The table's row at each sample's index, in the sample's channel; NaN where the index is outside `[0, 90]`. -/
def takeV (K : FVec F S91x48 .f32) (I : IVec S1048576x48 32) : FVec F S1048576x48 .f32 :=
  select
    (Host.reduce IntOp.andi
      (andi (cmpi .sge (wrapV I) (broadcastInDim S1048576x48x1 ![] bcast_S_S1048576x48x1 (constantI S_ 32 0#32)))
        (cmpi .sle (wrapV I) (broadcastInDim S1048576x48x1 ![0, 1, 2] bcast_S1x1x1_S1048576x48x1_0_1_2
          (broadcastInDim S1x1x1 ![2] bcast_S1_S1x1x1_2 (constantI S1 32 90#32)))))
      (constantI S_ 1 1#1) reducesTo_S1048576x48x1_S1048576x48_d2 h_S_)
    (Host.gather gather_S91x48_S1048576x48x1_S1048576x48_n_0_1_1_0_2_11 K (wrapV I))
    (broadcastInDim S1048576x48 ![] bcast_S_S1048576x48 (constant S_ .f32 0x7FC00000#32))

/-- The two-term combination of the two lookups. -/
def mixV (Fr T0 T1 : FVec F S1048576x48 .f32) : FVec F S1048576x48 .f32 :=
  addf (mulf T0 (subf (broadcastInDim S1048576x48 ![] bcast_S_S1048576x48 (constant S_ .f32 0x3F800000#32)) Fr)) (mulf Fr T1)

/-! ## Splitting a fold -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The five stretches: up to the position; up to the two knots; the lower lookup; the upper lookup; the rest. -/
abbrev opsA : List (HloOp τ sig (Elt F)) := (ops (F := F)).take 15
abbrev opsB : List (HloOp τ sig (Elt F)) := ((ops (F := F)).drop 15).take 14
abbrev opsC : List (HloOp τ sig (Elt F)) := ((ops (F := F)).drop 29).take 22
abbrev opsD : List (HloOp τ sig (Elt F)) := ((ops (F := F)).drop 51).take 22
abbrev opsE : List (HloOp τ sig (Elt F)) := (ops (F := F)).drop 73

theorem ops_split : (ops (F := F)) = opsA ++ (opsB ++ (opsC ++ (opsD ++ opsE))) := by
  simp only [opsA, opsB, opsC, opsD, opsE, ops, List.take_succ_cons, List.take_zero, List.drop_succ_cons, List.drop_zero,
    List.cons_append, List.nil_append]

theorem fold_split (V : Valuation τ sig (Elt F)) :
    after (ops (F := F)) V = after opsE (after opsD (after opsC (after opsB (after opsA V)))) := by
  conv_lhs => rw [ops_split]
  rw [after_append, after_append, after_append, after_append]

/-! ## Typed references: a value written through one and read back through it is the value -/

/-- Writing through a typed reference and reading back through the same one is the identity. -/
theorem ofBuf_toBuf {Val : EltTy → Type} {T : BufTy} (x : TRef sig T) (v : T.Contents Val) : x.ofBuf (x.toBuf v) = v := by
  obtain ⟨r, h, p2, p3⟩ := x
  subst h
  rfl

/-- A callee's argument read, or its result written, through the typed reference of a literal buffer is the value
    itself: one fact per such buffer, each checked at an abstract value. -/
theorem rd_v4 (p1 p2 p3) (v : FVec F S1048576x48 .f32) :
    (TRef.of (T := ⟨S1048576x48, .f32⟩) main_v4 p1 p2 p3).ofBuf (Val := Elt F) v = v := by
  have h : (TRef.of (T := ⟨S1048576x48, .f32⟩) main_v4 p1 p2 p3).ofBuf (Val := Elt F) v = v := rfl
  exact h.trans rfl
theorem rd_cst1 (p1 p2 p3) (v : FVec F S_ .f32) :
    (TRef.of (T := ⟨S_, .f32⟩) main_cst_1 p1 p2 p3).ofBuf (Val := Elt F) v = v := by
  have h : (TRef.of (T := ⟨S_, .f32⟩) main_cst_1 p1 p2 p3).ofBuf (Val := Elt F) v = v := rfl
  exact h.trans rfl
theorem rd_cst2 (p1 p2 p3) (v : FVec F S_ .f32) :
    (TRef.of (T := ⟨S_, .f32⟩) main_cst_2 p1 p2 p3).ofBuf (Val := Elt F) v = v := by
  have h : (TRef.of (T := ⟨S_, .f32⟩) main_cst_2 p1 p2 p3).ofBuf (Val := Elt F) v = v := rfl
  exact h.trans rfl
theorem wr_v5 (p1 p2 p3) (v : FVec F S1048576x48 .f32) :
    (TRef.of (T := ⟨S1048576x48, .f32⟩) main_v5 p1 p2 p3).toBuf (Val := Elt F) v = v := by
  have h : (TRef.of (T := ⟨S1048576x48, .f32⟩) main_v5 p1 p2 p3).toBuf (Val := Elt F) v = v := rfl
  exact h.trans rfl
theorem rd_v8 (p1 p2 p3) (v : IVec S1048576x48 32) :
    (TRef.of (T := ⟨S1048576x48, .i32⟩) main_v8 p1 p2 p3).ofBuf (Val := Elt F) v = v := by
  have h : (TRef.of (T := ⟨S1048576x48, .i32⟩) main_v8 p1 p2 p3).ofBuf (Val := Elt F) v = v := rfl
  exact h.trans rfl
theorem rd_c (p1 p2 p3) (v : IVec S_ 32) :
    (TRef.of (T := ⟨S_, .i32⟩) main_c p1 p2 p3).ofBuf (Val := Elt F) v = v := by
  have h : (TRef.of (T := ⟨S_, .i32⟩) main_c p1 p2 p3).ofBuf (Val := Elt F) v = v := rfl
  exact h.trans rfl
theorem rd_c3 (p1 p2 p3) (v : IVec S_ 32) :
    (TRef.of (T := ⟨S_, .i32⟩) main_c_3 p1 p2 p3).ofBuf (Val := Elt F) v = v := by
  have h : (TRef.of (T := ⟨S_, .i32⟩) main_c_3 p1 p2 p3).ofBuf (Val := Elt F) v = v := rfl
  exact h.trans rfl
theorem wr_v9 (p1 p2 p3) (v : IVec S1048576x48 32) :
    (TRef.of (T := ⟨S1048576x48, .i32⟩) main_v9 p1 p2 p3).toBuf (Val := Elt F) v = v := by
  have h : (TRef.of (T := ⟨S1048576x48, .i32⟩) main_v9 p1 p2 p3).toBuf (Val := Elt F) v = v := rfl
  exact h.trans rfl
theorem rd_arg1 (p1 p2 p3) (v : FVec F S91x48 .f32) :
    (TRef.of (T := ⟨S91x48, .f32⟩) main_arg1 p1 p2 p3).ofBuf (Val := Elt F) v = v := by
  have h : (TRef.of (T := ⟨S91x48, .f32⟩) main_arg1 p1 p2 p3).ofBuf (Val := Elt F) v = v := rfl
  exact h.trans rfl
theorem rd_v9 (p1 p2 p3) (v : IVec S1048576x48 32) :
    (TRef.of (T := ⟨S1048576x48, .i32⟩) main_v9 p1 p2 p3).ofBuf (Val := Elt F) v = v := by
  have h : (TRef.of (T := ⟨S1048576x48, .i32⟩) main_v9 p1 p2 p3).ofBuf (Val := Elt F) v = v := rfl
  exact h.trans rfl
theorem wr_v12 (p1 p2 p3) (v : FVec F S1048576x48 .f32) :
    (TRef.of (T := ⟨S1048576x48, .f32⟩) main_v12 p1 p2 p3).toBuf (Val := Elt F) v = v := by
  have h : (TRef.of (T := ⟨S1048576x48, .f32⟩) main_v12 p1 p2 p3).toBuf (Val := Elt F) v = v := rfl
  exact h.trans rfl
theorem rd_v11 (p1 p2 p3) (v : IVec S1048576x48 32) :
    (TRef.of (T := ⟨S1048576x48, .i32⟩) main_v11 p1 p2 p3).ofBuf (Val := Elt F) v = v := by
  have h : (TRef.of (T := ⟨S1048576x48, .i32⟩) main_v11 p1 p2 p3).ofBuf (Val := Elt F) v = v := rfl
  exact h.trans rfl
theorem wr_v13 (p1 p2 p3) (v : FVec F S1048576x48 .f32) :
    (TRef.of (T := ⟨S1048576x48, .f32⟩) main_v13 p1 p2 p3).toBuf (Val := Elt F) v = v := by
  have h : (TRef.of (T := ⟨S1048576x48, .f32⟩) main_v13 p1 p2 p3).toBuf (Val := Elt F) v = v := rfl
  exact h.trans rfl

/-! ## The stretches, each from ANY contents `V` at its entry

A called function's operations read and write through typed references, whose contents are transported along the
buffers' type equations; those transports are the identity (`ofBuf_toBuf` and the per-buffer facts above), and with
them rewritten away what a stretch leaves in a buffer is the stage applied to what the stretch found. -/

section Stretches

variable (V : Valuation τ sig (Elt F))

/-- After the first stretch the clamped position is in place, from the flattened samples, and the table is untouched. -/
theorem A_pos : after opsA V (Proc.devRef .tc main_v5) = posV (shapeCast S1048576x48 (V (Proc.devRef .tc main_arg0)) shapeCasts_S16x256x256x48_S1048576x48) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem A_tab : after opsA V (Proc.devRef .tc main_arg1) = V (Proc.devRef .tc main_arg1) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

/-- The second stretch leaves the fraction, the lower knot and the next knot, all of the position. -/
theorem B_frac : after opsB V (Proc.devRef .tc main_v7) = fracV (V (Proc.devRef .tc main_v5)) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem B_knot : after opsB V (Proc.devRef .tc main_v9) = knotV (V (Proc.devRef .tc main_v5)) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem B_next : after opsB V (Proc.devRef .tc main_v11) = nextV (knotV (V (Proc.devRef .tc main_v5))) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem B_tab : after opsB V (Proc.devRef .tc main_arg1) = V (Proc.devRef .tc main_arg1) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

/-- The third stretch looks the lower knot up and keeps the rest. -/
theorem C_take : after opsC V (Proc.devRef .tc main_v12) = takeV (V (Proc.devRef .tc main_arg1)) (V (Proc.devRef .tc main_v9)) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem C_frac : after opsC V (Proc.devRef .tc main_v7) = V (Proc.devRef .tc main_v7) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem C_next : after opsC V (Proc.devRef .tc main_v11) = V (Proc.devRef .tc main_v11) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem C_tab : after opsC V (Proc.devRef .tc main_arg1) = V (Proc.devRef .tc main_arg1) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

/-- The fourth looks the next knot up. -/
theorem D_take : after opsD V (Proc.devRef .tc main_v13) = takeV (V (Proc.devRef .tc main_arg1)) (V (Proc.devRef .tc main_v11)) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem D_frac : after opsD V (Proc.devRef .tc main_v7) = V (Proc.devRef .tc main_v7) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

theorem D_low : after opsD V (Proc.devRef .tc main_v12) = V (Proc.devRef .tc main_v12) := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

/-- The last combines the two lookups and reshapes. -/
theorem E_out : after opsE V (Proc.devRef .tc main_v19)
    = shapeCast S16x256x256x48 (mixV (V (Proc.devRef .tc main_v7)) (V (Proc.devRef .tc main_v12)) (V (Proc.devRef .tc main_v13)))
        shapeCasts_S1048576x48_S16x256x256x48 := by
  simp only [opsA, opsB, opsC, opsD, opsE, ops, List.take_succ_cons, List.take_zero, List.drop_succ_cons, List.drop_zero]
  after_results_simp
  try simp only [ofBuf_toBuf, rd_v4, rd_cst1, rd_cst2, wr_v5, rd_v8, rd_c, rd_c3, wr_v9, rd_arg1, rd_v9, wr_v12, rd_v11, wr_v13]
  try rfl

end Stretches

/-- THE RUN'S RESULT as one term of the launch contents: the stages composed. -/
theorem fold_out (V : Valuation τ sig (Elt F)) :
    after (ops (F := F)) V (Proc.devRef .tc main_v19)
      = shapeCast S16x256x256x48
          (mixV (fracV (posV (shapeCast S1048576x48 (V (Proc.devRef .tc main_arg0)) shapeCasts_S16x256x256x48_S1048576x48)))
            (takeV (V (Proc.devRef .tc main_arg1)) (knotV (posV (shapeCast S1048576x48 (V (Proc.devRef .tc main_arg0)) shapeCasts_S16x256x256x48_S1048576x48))))
            (takeV (V (Proc.devRef .tc main_arg1)) (nextV (knotV (posV (shapeCast S1048576x48 (V (Proc.devRef .tc main_arg0)) shapeCasts_S16x256x256x48_S1048576x48))))))
          shapeCasts_S1048576x48_S16x256x256x48 := by
  rw [fold_split, E_out, D_take, D_frac, D_low, C_take, C_frac, C_next, C_tab, B_frac, B_knot, B_next, B_tab, A_pos, A_tab]

end Cert.ReferenceIdeal.Fold

end
-- ==== Proof.Lookup.lean ====
/-
  Two host operations of the reference read at an index.

  `take_along_axis` on the knot axis lowers to a gather of the table `[91, 48]` at start indices `[N, 48, 1]`
  whose column axis is a batching axis: result element `(t, q)` is the table's row `idx[t, q, 0]` (read signed
  and clamped into `[0, 90]`) of the SAME column `q`.  Its guard reduces a one-bit array by `and`: where every
  bit is one the result is one.
-/
import proofs.«175676_j48223892799740_1_alg».proof.ReferenceIdeal
import Idealize.ShloMosaic.Lib.ValueIdx

noncomputable section

namespace Cert.ReferenceIdeal.Lookup

open Cert.ReferenceIdeal Idealize.ShloMosaic Idealize.ShloMosaic.ValueIdx

variable [Facts₀]

/-- The gather's dimension numbers, under a short name. -/
abbrev gd : GatherDims S91x48 S1048576x48x1 S1048576x48 := gather_S91x48_S1048576x48x1_S1048576x48_n_0_1_1_0_2_11

/-- The gather at `(t, q)`: row `min idx[t, q, 0] 90` of column `q`. -/
theorem gather_apply {α : Type} (x : S91x48.Idx → α) (idx : IVec S1048576x48x1 32) (y : S1048576x48.Idx) :
    Host.gather gd x idx y
      = x (ix2 (⟨min (idx (ix3 (y 0) (y 1) (0 : Fin 1))).toInt.toNat 90, by omega⟩ : Fin 91) (y 1)) := by
  unfold Host.gather
  congr 1
  funext a
  refine Fin.ext ?_
  match a with
  | ⟨0, _⟩ =>
    show gd.start y idx 0 + gd.batchCoord y 0 + gd.offCoord y 0 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx y ⟨List.idxOf (0 : Fin 2) gd.startIndexMap,
        List.idxOf_lt_length_iff.2 (List.mem_singleton.mpr rfl)⟩ = ix3 (y 0) (y 1) (0 : Fin 1) := by
      funext b; refine Fin.ext ?_
      match b with
      | ⟨0, _⟩ => rfl
      | ⟨1, _⟩ => rfl
      | ⟨2, _⟩ => rfl
    rw [hsi]
    rfl
  | ⟨1, _⟩ =>
    show gd.start y idx 1 + gd.batchCoord y 1 + gd.offCoord y 1 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (1 : Fin 2) ∈ gd.operandBatchingDims from List.mem_singleton.mpr rfl)]
    rfl

/-- An `and`-reduce from the bit one of an array whose every bit is one is one everywhere. -/
theorem reduce_and_ones {s t u : Shape} {axes : List (Fin s.rank)} (x : s.Idx → BitVec 1) (init : u.Idx → BitVec 1)
    (h : s.ReducesTo axes t) (hu : 0 < u.numel) (hx : ∀ k, x k = 1#1) (hi : ∀ k, init k = 1#1) (j : t.Idx) :
    Host.reduce IntOp.andi x init h hu j = 1#1 := by
  unfold Host.reduce
  have key : ∀ (l : List (Fin s.numel)) (b : BitVec 1), b = 1#1 →
      l.foldl (fun r n => IntOp.andi r (x (s.rowMajor.symm n))) b = 1#1 := by
    intro l
    induction l with
    | nil => intro b hb; exact hb
    | cons n l ih =>
      intro b hb
      rw [List.foldl_cons]
      exact ih _ (by rw [hb, hx]; rfl)
  exact key _ _ (hi _)

end Cert.ReferenceIdeal.Lookup

end
-- ==== Proof.RefValue.lean ====
/-
  The reference's result is the specification.

  Both lookups of the reference are at indices that lie in `[0, 90]` for every sample (the lower knot is clamped into
  `[0, 89]`, the upper one is the next), so the wrap of negative indices does nothing, the range test passes
  everywhere, the NaN branch is never taken, and the gather's own clamp is the identity: each lookup is the table's row
  at the knot, in the sample's channel.  The combination of the two is then, sample by sample, the interpolated value
  the specification names.
-/
import proofs.«175676_j48223892799740_1_alg».proof.Proof.RefFold
import proofs.«175676_j48223892799740_1_alg».proof.Proof.Lookup
import proofs.«175676_j48223892799740_1_alg».proof.Proof.Interp
import Idealize.ShloMosaic.Lib.ValueIdx
import Idealize.ShloMosaic.Lib.Pipeline.Value

set_option maxRecDepth 16384

noncomputable section

namespace Cert.ReferenceIdeal.RefValue

open Cert.ReferenceIdeal Cert.ReferenceIdeal.Gen Cert.ReferenceIdeal.Fold Cert.ReferenceIdeal.Lookup Cert.Knots
open Idealize.ShloMosaic Idealize.ShloMosaic.TcCoe Idealize.SL.Sem Idealize.ShloMosaic.StableHlo Idealize.ShloMosaic.ValueIdx

/-! ## One sample -/

theorem frac_apply (X : FVec Ideal S1048576x48 .f32) (i : S1048576x48.Idx) : fracV (posV X) i = frac (X i) := rfl

theorem knot_apply (X : FVec Ideal S1048576x48 .f32) (i : S1048576x48.Idx) :
    knotV (posV X) i = clamp (Ideal.fptosi 32 (low (X i))) := rfl

/-! ## A lookup at an index that is a knot number -/

/-- The wrapped index at `k` is the index itself, when that is a knot number. -/
theorem wrap_apply (I : IVec S1048576x48 32) (k : S1048576x48x1.Idx) (n : ℕ) (hn : n ≤ 90)
    (hk : I (ix2 (k 0) (k 1)) = BitVec.ofNat 32 n) : wrapV I k = BitVec.ofNat 32 n := by
  unfold wrapV
  refine (shapeCast_apply (s := S1048576x48) (t := S1048576x48x1) _ _ k (ix2 (k 0) (k 1)) ?_).trans ?_
  · rw [Shape.rowMajor_val_two, Shape.rowMajor_val_three]
    have h2 : (k 2).val < 1 := (k 2).isLt
    simp
    omega
  show Scalar.select (IntOp.cmpi .slt (I (ix2 (k 0) (k 1))) 0#32) (IntOp.addi (I (ix2 (k 0) (k 1))) 91#32) (I (ix2 (k 0) (k 1))) = _
  rw [hk, not_neg n hn, select_zero]

/-- Where every index is a knot number the range test passes everywhere. -/
theorem guard_ones (I : IVec S1048576x48 32) (hI : ∀ i, ∃ n, n ≤ 90 ∧ I i = BitVec.ofNat 32 n) (k : S1048576x48x1.Idx) :
    andi (cmpi .sge (wrapV I) (broadcastInDim S1048576x48x1 ![] bcast_S_S1048576x48x1 (constantI S_ 32 0#32)))
        (cmpi .sle (wrapV I) (broadcastInDim S1048576x48x1 ![0, 1, 2] bcast_S1x1x1_S1048576x48x1_0_1_2
          (broadcastInDim S1x1x1 ![2] bcast_S1_S1x1x1_2 (constantI S1 32 90#32)))) k = 1#1 := by
  obtain ⟨n, hn, hk⟩ := hI (ix2 (k 0) (k 1))
  show IntOp.andi (IntOp.cmpi .sge (wrapV I k) 0#32) (IntOp.cmpi .sle (wrapV I k) 90#32) = 1#1
  rw [wrap_apply I k n hn hk, ge_zero n hn, le_last n hn]
  rfl

/-- THE LOOKUP at a sample whose index is the knot number `n`: the table at knot `n`, in the sample's channel. -/
theorem take_apply (K : FVec Ideal S91x48 .f32) (I : IVec S1048576x48 32)
    (hI : ∀ i, ∃ n, n ≤ 90 ∧ I i = BitVec.ofNat 32 n) (i : S1048576x48.Idx) (n : ℕ) (hn : n ≤ 90)
    (hi : I i = BitVec.ofNat 32 n) : takeV K I i = col K (i 1) n := by
  unfold takeV
  rw [select_apply, reduce_and_ones _ (constantI S_ 1 1#1) _ _ (guard_ones I hI) (fun _ => rfl), select_one, gather_apply]
  have hw : wrapV I (ix3 (i 0) (i 1) (0 : Fin 1)) = BitVec.ofNat 32 n :=
    wrap_apply I _ n hn (by show I (ix2 (i 0) (i 1)) = _; exact (congrArg I (eq_ix2 i)).symm.trans hi)
  unfold col
  rw [dif_pos (show n < 91 by omega)]
  refine congrArg K ?_
  refine congrArg (fun r : Fin 91 => ix2 r (i 1)) (Fin.ext ?_)
  show min (wrapV I (ix3 (i 0) (i 1) (0 : Fin 1))).toInt.toNat 90 = n
  rw [hw, row_of n hn]

/-! ## The combination is the specification -/

theorem mix_eq (X : FVec Ideal S1048576x48 .f32) (K : FVec Ideal S91x48 .f32) :
    mixV (fracV (posV X)) (takeV K (knotV (posV X))) (takeV K (nextV (knotV (posV X)))) = spline X K := by
  funext i
  have hle : knotOf (Ideal.fptosi 32 (low (X i))) ≤ 89 := knotOf_le _
  have hk : ∀ i', ∃ n, n ≤ 90 ∧ knotV (posV X) i' = BitVec.ofNat 32 n := fun i' =>
    ⟨knotOf (Ideal.fptosi 32 (low (X i'))), by have := knotOf_le (Ideal.fptosi 32 (low (X i'))); omega,
      (knot_apply X i').trans (clamp_eq _)⟩
  have hx : ∀ i', ∃ n, n ≤ 90 ∧ nextV (knotV (posV X)) i' = BitVec.ofNat 32 n := fun i' =>
    ⟨knotOf (Ideal.fptosi 32 (low (X i'))) + 1, by have := knotOf_le (Ideal.fptosi 32 (low (X i'))); omega, by
      show IntOp.addi (knotV (posV X) i') 1#32 = _
      rw [knot_apply, clamp_eq, succ_word]⟩
  -- the combination at `i`, by rewriting only: the two lookups must not be evaluated
  unfold mixV spline
  rw [addf_apply, mulf_apply, mulf_apply, subf_apply]
  rw [take_apply K _ hk i (knotOf (Ideal.fptosi 32 (low (X i)))) (by omega) ((knot_apply X i).trans (clamp_eq _)),
    take_apply K _ hx i (knotOf (Ideal.fptosi 32 (low (X i))) + 1) (by omega)
      (by show IntOp.addi (knotV (posV X) i) 1#32 = _; rw [knot_apply, clamp_eq, succ_word])]
  rfl

/-! ## The run, read -/

/-- The reference's run re-posted: its result is the specification of the flattened first argument and the table,
    reshaped; the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = shapeCast S16x256x256x48
            (spline (shapeCast S1048576x48 (m ((c.tc : Thread nD τ).loc main_arg0)) shapeCasts_S16x256x256x48_S1048576x48)
              (m ((c.tc : Thread nD τ).loc main_arg1)))
            shapeCasts_S1048576x48_S16x256x256x48
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((fold_out (launchContents m c)).trans (by rw [mix_eq])), (h c).2⟩)
    (Cert.ReferenceIdeal.Value.run (F := Ideal) m ρ)

end Cert.ReferenceIdeal.RefValue

end
-- ==== Proof.lean ====
/-
  The proof of `Cert.Claim`: a 91-knot piecewise-linear lookup kernel against its gather reference, over the
  extended reals.

  Both programs flatten the samples to `[1048576, 48]`, place each sample among the knots in the same way (the same
  literals, the same operations, in the same order), and reshape the result back.  They differ in how they read the
  table at a sample's knot `j` and at `j + 1`: the reference gathers those two rows; the kernel sweeps all 91 rows and
  weighs row `n` by `[j = n] * (1 - f) + [j = n - 1] * f`.  Since `j` is clamped into `[0, 89]`, exactly the rows `j`
  and `j + 1` carry a nonzero weight, and on the extended reals a zero weight annihilates whatever the table holds, so
  the sweep is the reference's two-term value (`Cert.Knots.acc_all`).  Both results are therefore the one array
  `spline` of the flattened samples and the table, reshaped: the kernel's by its frame run read block by block
  (`Cert.KernelIdeal.ArrValue.run`), the reference's by its run read stretch by stretch
  (`Cert.ReferenceIdeal.RefValue.run`).  The law needs no finiteness, so the precondition is never opened.
  The ideal pass rewrote nothing, so `preserves` is `True`.
-/
import proofs.«175676_j48223892799740_1_alg».proof.Defs
import proofs.«175676_j48223892799740_1_alg».proof.Proof.Gen.Kernel
import proofs.«175676_j48223892799740_1_alg».proof.Proof.Gen.Kernel.Skeleton
import proofs.«175676_j48223892799740_1_alg».proof.Proof.Gen.Kernel.Launch
import proofs.«175676_j48223892799740_1_alg».proof.Proof.Gen.Kernel.Points
import proofs.«175676_j48223892799740_1_alg».proof.Proof.Gen.Kernel.Frame
import proofs.«175676_j48223892799740_1_alg».proof.Proof.Gen.KernelIdeal
import proofs.«175676_j48223892799740_1_alg».proof.Proof.Gen.KernelIdeal.Skeleton
import proofs.«175676_j48223892799740_1_alg».proof.Proof.Gen.KernelIdeal.Launch
import proofs.«175676_j48223892799740_1_alg».proof.Proof.Gen.KernelIdeal.Points
import proofs.«175676_j48223892799740_1_alg».proof.Proof.Gen.KernelIdeal.Frame
import proofs.«175676_j48223892799740_1_alg».proof.Proof.Gen.ReferenceIdeal
import proofs.«175676_j48223892799740_1_alg».proof.Proof.Gen.Pre_finite_inputs
import proofs.«175676_j48223892799740_1_alg».proof.Proof.KernelValue
import proofs.«175676_j48223892799740_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both idealized programs end at the specification of arguments that agree. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
